-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x32 : Shape := ⟨2, ![25000, 32]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S2x800000 : Shape := ⟨2, ![2, 800000]⟩
abbrev S_ : Shape := ⟨0, ![]⟩

class Facts : Prop where
  bcast_S_S25000x32 : S_.BroadcastsInDim S25000x32 (![] : Fin 0 → Fin S25000x32.rank)
  reducesTo_S25000x32_S_d0_1 : S25000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x16 .f32) (main_arg13 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x16 .f32 := Host.absf main_arg12
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x16 .f32) (main_arg13 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S32x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x16 .f32) (main_arg13 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S25000x32 .f32) (main_arg1 : FVec F S25000x32 .f32) (main_arg2 : FVec F S32x128 .f32) (main_arg3 : FVec F S128 .f32) (main_arg4 : FVec F S32x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x16 .f32) (main_arg13 : FVec F S16 .f32) (main_arg14 : IVec S50000 32) (main_arg15 : IVec S2x800000 32) : IVec S_ 1 :=
  let main_v0 : FVec F S25000x32 .f32 := Host.absf main_arg0
  let main_cst : FVec F S_ .f32 := constant S_ .f32 0x7F800000#32
  let main_v1 : FVec F S25000x32 .f32 := broadcastInDim S25000x32 ![] bcast_S_S25000x32 main_cst
  let main_v2 : IVec S25000x32 1 := cmpf .olt main_v0 main_v1
  let main_c : IVec S_ 1 := constantI S_ 1 1#1
  let main_v3 : IVec S_ 1 := (fun x v => Host.reduce IntOp.andi x v reducesTo_S25000x32_S_d0_1 h_S_) main_v2 main_c
  let main_v4 : FVec F S25000x32 .f32 := Host.absf main_arg1
  let main_cst_0 : FVec F S_ .f32 := constant S_ .f32 0x7F800000#32
  let main_v5 : FVec F S25000x32 .f32 := broadcastInDim S25000x32 ![] bcast_S_S25000x32 main_cst_0
  let main_v6 : IVec S25000x32 1 := cmpf .olt main_v4 main_v5
  let main_c_1 : IVec S_ 1 := constantI S_ 1 1#1
  let main_v7 : IVec S_ 1 := (fun x v => Host.reduce IntOp.andi x v reducesTo_S25000x32_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S25000x32 : Shape := ⟨2, ![25000, 32]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S2x800000 : Shape := ⟨2, ![2, 800000]⟩
abbrev S25000x128 : Shape := ⟨2, ![25000, 128]⟩
abbrev S5000x32 : Shape := ⟨2, ![5000, 32]⟩
abbrev S5000x128 : Shape := ⟨2, ![5000, 128]⟩
abbrev S1x128 : Shape := ⟨2, ![1, 128]⟩
abbrev S50000x128 : Shape := ⟨2, ![50000, 128]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x16 : Shape := ⟨2, ![50000, 16]⟩
abbrev S5000x16 : Shape := ⟨2, ![5000, 16]⟩
abbrev S1x16 : Shape := ⟨2, ![1, 16]⟩

abbrev nBuf : Space → Nat
  | .hbm => 75
  | .vmem => 36
  | .smem => 0
  | _ => 0

abbrev bufTy : (tb : Table) → Fin (tcTables nBuf tb) → BufTy
  | .hbm, ⟨0, _⟩ => ⟨S25000x32, .f32⟩
  | .hbm, ⟨1, _⟩ => ⟨S25000x32, .f32⟩
  | .hbm, ⟨2, _⟩ => ⟨S32x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x16, .f32⟩
  | .hbm, ⟨13, _⟩ => ⟨S16, .f32⟩
  | .hbm, ⟨14, _⟩ => ⟨S50000, .i32⟩
  | .hbm, ⟨15, _⟩ => ⟨S2x800000, .i32⟩
  | .hbm, ⟨16, _⟩ => ⟨S25000x128, .f32⟩
  | .hbm, ⟨17, _⟩ => ⟨S25000x128, .f32⟩
  | .hbm, ⟨18, _⟩ => ⟨S50000x128, .f32⟩
  | .hbm, ⟨19, _⟩ => ⟨S_, .i32⟩
  | .hbm, ⟨20, _⟩ => ⟨S50000, .i32⟩
  | .hbm, ⟨21, _⟩ => ⟨S50000, .i1⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .i32⟩
  | .hbm, ⟨26, _⟩ => ⟨S50000x1, .i32⟩
  | .hbm, ⟨27, _⟩ => ⟨S50000x128, .f32⟩
  | .hbm, ⟨28, _⟩ => ⟨S1x800000, .i32⟩
  | .hbm, ⟨29, _⟩ => ⟨S800000, .i32⟩
  | .hbm, ⟨30, _⟩ => ⟨S1x800000, .i32⟩
  | .hbm, ⟨31, _⟩ => ⟨S800000, .i32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x16, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x32, .f32⟩
  | .local _ .vmem, ⟨7, _⟩ => ⟨S5000x32, .f32⟩
  | .local _ .vmem, ⟨8, _⟩ => ⟨S32x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x16, .f32⟩
  | .local _ .vmem, ⟨33, _⟩ => ⟨S16, .f32⟩
  | .local _ .vmem, ⟨34, _⟩ => ⟨S5000x16, .f32⟩
  | .local _ .vmem, ⟨35, _⟩ => ⟨S5000x16, .f32⟩
  | _, _ => ⟨S25000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S25000x128_S25000x128_S50000x128_d0 : Shape.Concatenates [S25000x128, S25000x128] S50000x128 0
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x32_S32x128_S5000x128_1_0_0_1_n_n_wf : DotDims.WF S5000x32 S32x128 S5000x128 [1] [0] [0] [1] [] []
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S25000x32.size a
  hwx0_0 : ∀ i : grid0.Coords, EltTy.bits .f32 = 32 ∨ (Rect.block (s := S25000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S25000x32.size a
  hwx1_0 : ∀ i : grid1.Coords, EltTy.bits .f32 = 32 ∨ (Rect.block (s := S25000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16.size a ≤ S16.size a
  hwx4_2 : ∀ i : grid4.Coords, EltTy.bits .f32 = 32 ∨ (Rect.block (s := S16) S16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S50000x16.size a
  hwx4_3 : ∀ i : grid4.Coords, EltTy.bits .f32 = 32 ∨ (Rect.block (s := S50000x16) S5000x16.size (cc4_transform_3 i) (hinb4_3 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S25000x32 : Shape := ⟨2, ![25000, 32]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S2x800000 : Shape := ⟨2, ![2, 800000]⟩
abbrev S25000x128 : Shape := ⟨2, ![25000, 128]⟩
abbrev S1x128 : Shape := ⟨2, ![1, 128]⟩
abbrev S50000x128 : Shape := ⟨2, ![50000, 128]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x16 : Shape := ⟨2, ![50000, 16]⟩
abbrev S1x16 : Shape := ⟨2, ![1, 16]⟩

abbrev nBuf : Space → Nat
  | .hbm => 97
  | .vmem => 0
  | .smem => 0
  | _ => 0

abbrev bufTy : (tb : Table) → Fin (tcTables nBuf tb) → BufTy
  | .hbm, ⟨0, _⟩ => ⟨S25000x32, .f32⟩
  | .hbm, ⟨1, _⟩ => ⟨S25000x32, .f32⟩
  | .hbm, ⟨2, _⟩ => ⟨S32x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x16, .f32⟩
  | .hbm, ⟨13, _⟩ => ⟨S16, .f32⟩
  | .hbm, ⟨14, _⟩ => ⟨S50000, .i32⟩
  | .hbm, ⟨15, _⟩ => ⟨S2x800000, .i32⟩
  | .hbm, ⟨16, _⟩ => ⟨S25000x128, .f32⟩
  | .hbm, ⟨17, _⟩ => ⟨S1x128, .f32⟩
  | .hbm, ⟨18, _⟩ => ⟨S25000x128, .f32⟩
  | .hbm, ⟨19, _⟩ => ⟨S25000x128, .f32⟩
  | .hbm, ⟨20, _⟩ => ⟨S25000x128, .f32⟩
  | .hbm, ⟨21, _⟩ => ⟨S1x128, .f32⟩
  | .hbm, ⟨22, _⟩ => ⟨S25000x128, .f32⟩
  | .hbm, ⟨23, _⟩ => ⟨S25000x128, .f32⟩
  | .hbm, ⟨24, _⟩ => ⟨S50000x128, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x128, .f32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x16, .f32⟩
  | .hbm, ⟨94, _⟩ => ⟨S1x16, .f32⟩
  | .hbm, ⟨95, _⟩ => ⟨S50000x16, .f32⟩
  | .hbm, ⟨96, _⟩ => ⟨S50000x16, .f32⟩
  | _, _ => ⟨S25000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_cst : Ref sig .tc := ⟨.hbm, 69, rfl⟩
abbrev main_call0_v0 : Ref sig .tc := ⟨.hbm, 70, rfl⟩
abbrev main_v45 : Ref sig .tc := ⟨.hbm, 71, rfl⟩
abbrev main_c_6 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  concatenates_S25000x128_S25000x128_S50000x128_d0 : Shape.Concatenates [S25000x128, S25000x128] S50000x128 0
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S25000x32_S32x128_S25000x128_1_0_0_1_n_n_wf : DotDims.WF S25000x32 S32x128 S25000x128 [1] [0] [0] [1] [] []
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def dot_S25000x32_S32x128_S25000x128_1_0_0_1_n_n : DotDims S25000x32 S32x128 S25000x128 where
  lhsContracting := [1]
  rhsContracting := [0]
  lhsNonContracting := [0]
  rhsNonContracting := [1]
  lhsBatch := []
  rhsBatch := []
  wf := dot_S25000x32_S32x128_S25000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.LibPlainDot.lean ====
/-
  Plain matrix products at the ideal values.

  A product of an M×K array by a K×N array (left operand contracted on its columns, right on its rows, no batch
  axis), read at row r and column c, is the sum over k of x(r,k)·w(k,c): on the host, where the product has no
  accumulator, and in a kernel, where it is accumulated into a zero splat. With a bias row added to every row this is
  the affine map `affine x w b`; the host spells the bias as one row broadcast down the rows, a kernel as the vector cast
  to one row and broadcast, after narrowing the operands to bf16, which changes nothing at the ideal values.
  A graph layer's combine step adds two such products before the bias — a node's own row times one matrix, its
  neighbours' mean row times another: `sageRows`. A rectifier is the maximum with the zero word, splat by a kernel and
  broadcast from a scalar constant by the host: `relu`.
  Everything is stated for any extents M, K, N.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.PlainDot

open Idealize.ShloMosaic Idealize.ShloMosaic.ValueIdx

variable {M K N : ℕ}

/-! ## The operand indices of a plain product -/

/-- The left operand is read in the result's row … -/
theorem plain_lhs_0 (i : (⟨2, ![M, N]⟩ : Shape).Idx) (q : (DotDims.plain M K N).contr.Idx) :
    ((DotDims.plain M K N).lhsIdx i q 0).val = (i 0).val := rfl
/-- … at the contraction index's column; -/
theorem plain_lhs_1 (i : (⟨2, ![M, N]⟩ : Shape).Idx) (q : (DotDims.plain M K N).contr.Idx) :
    ((DotDims.plain M K N).lhsIdx i q 1).val = (q ⟨0, Nat.one_pos⟩).val := rfl
/-- the right operand in the contraction index's row … -/
theorem plain_rhs_0 (i : (⟨2, ![M, N]⟩ : Shape).Idx) (q : (DotDims.plain M K N).contr.Idx) :
    ((DotDims.plain M K N).rhsIdx i q 0).val = (q ⟨0, Nat.one_pos⟩).val := rfl
/-- … at the result's column. -/
theorem plain_rhs_1 (i : (⟨2, ![M, N]⟩ : Shape).Idx) (q : (DotDims.plain M K N).contr.Idx) :
    ((DotDims.plain M K N).rhsIdx i q 1).val = (i 1).val := rfl

/-! ## The product at a row and a column -/

/-- A plain product on the host, at the ideal values, at row `r` and column `c`: the sum over `k` of `x(r,k)·w(k,c)`. -/
theorem dotGeneral_plain_apply {φ₁ φ₂ : FTy} (prec : Option ContractPrecision) (x : FVec Ideal ⟨2, ![M, K]⟩ φ₁)
    (w : FVec Ideal ⟨2, ![K, N]⟩ φ₂) (r : Fin M) (c : Fin N) :
    Host.dotGeneral (DotDims.plain M K N) prec x w (ix2 r c) = ∑ k : Fin K, x (ix2 r k) * w (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 _ _).trans hk
      | ⟨1, _⟩ => exact plain_rhs_1 _ _)
  rw [el, er]

/-- A kernel's plain product accumulated into a zero splat is the same sum. -/
theorem matmul_plain_zero_apply {φ₁ φ₂ : FTy} (prec : Option ContractPrecision) (x : FVec Ideal ⟨2, ![M, K]⟩ φ₁)
    (w : FVec Ideal ⟨2, ![K, N]⟩ φ₂) (r : Fin M) (c : Fin N) :
    matmul (DotDims.plain M K N) prec x w (constant ⟨2, ![M, N]⟩ .f32 0x00000000#32) (ix2 r c)
      = ∑ k : Fin K, x (ix2 r k) * w (ix2 k c) := by
  rw [matmul_zero_eq_dotGeneral]
  exact dotGeneral_plain_apply prec x w r c

/-! ## Rows times a matrix, plus a bias row -/

/-- Entry (r, c) is the sum over `k` of `x(r,k)·w(k,c)`, plus `b(c)`. -/
def affine (x : (⟨2, ![M, K]⟩ : Shape).Idx → EReal) (w : (⟨2, ![K, N]⟩ : Shape).Idx → EReal) (b : (⟨1, ![N]⟩ : Shape).Idx → EReal) :
    (⟨2, ![M, N]⟩ : Shape).Idx → EReal :=
  fun i => (∑ k : Fin K, x (ix2 (i 0 : Fin M) k) * w (ix2 k (i 1 : Fin N))) + b (ix1 (i 1 : Fin N))

theorem affine_apply (x : (⟨2, ![M, K]⟩ : Shape).Idx → EReal) (w : (⟨2, ![K, N]⟩ : Shape).Idx → EReal)
    (b : (⟨1, ![N]⟩ : Shape).Idx → EReal) (r : Fin M) (c : Fin N) :
    affine x w b (ix2 r c) = (∑ k : Fin K, x (ix2 r k) * w (ix2 k c)) + b (ix1 c) := rfl

/-- Two affine maps agree at an entry when their operands agree on the row, the column and the bias entry read there:
    a block of rows of an affine map is the affine map of that block of rows. -/
theorem affine_congr {M' : ℕ} (x : (⟨2, ![M, K]⟩ : Shape).Idx → EReal) (w : (⟨2, ![K, N]⟩ : Shape).Idx → EReal)
    (b : (⟨1, ![N]⟩ : Shape).Idx → EReal) (x' : (⟨2, ![M', K]⟩ : Shape).Idx → EReal) (w' : (⟨2, ![K, N]⟩ : Shape).Idx → EReal)
    (b' : (⟨1, ![N]⟩ : Shape).Idx → EReal) (r : Fin M) (r' : Fin M') (c : Fin N)
    (hx : ∀ k : Fin K, x (ix2 r k) = x' (ix2 r' k)) (hw : ∀ k : Fin K, w (ix2 k c) = w' (ix2 k c)) (hb : b (ix1 c) = b' (ix1 c)) :
    affine x w b (ix2 r c) = affine x' w' b' (ix2 r' c) := by
  rw [affine_apply, affine_apply, hb]
  exact congrArg (· + b' (ix1 c)) (Finset.sum_congr rfl fun k _ => by rw [hx k, hw k])

/-- The host's spelling: the product, plus the bias as one row broadcast down the rows. -/
theorem hostAffine_eq (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none x w)
        (broadcastInDim ⟨2, ![M, N]⟩ ![0, 1] h2 (broadcastInDim ⟨2, ![1, N]⟩ ![1] h1 b))
      = affine x w b := by
  funext i
  obtain ⟨r, c, rfl⟩ : ∃ (r : Fin M) (c : Fin N), i = ix2 r c := ⟨i 0, i 1, eq_ix2 i⟩
  rw [addf_apply, dotGeneral_plain_apply, broadcastInDim_oneRow_apply, affine_apply]
  congr 1
  refine broadcastInDim_apply ![1] h1 b (ix2 (0 : Fin 1) c) (ix1 c) ?_
  intro a
  match a with
  | ⟨0, _⟩ =>
    show c.val = if N = 1 then 0 else c.val
    split
    · have := c.isLt; omega
    · rfl

/-- A kernel's spelling: the product of the narrowed operands into a zero accumulator, plus the bias cast to one row and
    broadcast down the rows. -/
theorem kernelAffine_eq (x : FVec Ideal ⟨2, ![M, K]⟩ .f32) (w : FVec Ideal ⟨2, ![K, N]⟩ .f32) (b : FVec Ideal ⟨1, ![N]⟩ .f32)
    (hx : FTy.bf16.bits < FTy.f32.bits)
    (h1 : (⟨1, ![N]⟩ : Shape).ShapeCasts ⟨2, ![1, N]⟩) (h2 : (⟨2, ![1, N]⟩ : Shape).Broadcasts ⟨2, ![M, N]⟩) :
    addf (matmul (DotDims.plain M K N) none (truncf .bf16 x hx) (truncf .bf16 w hx) (constant ⟨2, ![M, N]⟩ .f32 0x00000000#32))
        (broadcastTo ⟨2, ![M, N]⟩ (shapeCast ⟨2, ![1, N]⟩ b h1) h2)
      = affine x w b := by
  funext i
  obtain ⟨r, c, rfl⟩ : ∃ (r : Fin M) (c : Fin N), i = ix2 r c := ⟨i 0, i 1, eq_ix2 i⟩
  rw [addf_apply, matmul_plain_zero_apply, broadcastTo_1b_ab_apply, shapeCast_a_1a_apply, affine_apply]
  rfl

/-- The same when the kernel first casts the rows to their own shape, which is the identity. -/
theorem kernelAffineCast_eq (x : FVec Ideal ⟨2, ![M, K]⟩ .f32) (w : FVec Ideal ⟨2, ![K, N]⟩ .f32) (b : FVec Ideal ⟨1, ![N]⟩ .f32)
    (hx : FTy.bf16.bits < FTy.f32.bits) (hc : (⟨2, ![M, K]⟩ : Shape).ShapeCasts ⟨2, ![M, K]⟩)
    (h1 : (⟨1, ![N]⟩ : Shape).ShapeCasts ⟨2, ![1, N]⟩) (h2 : (⟨2, ![1, N]⟩ : Shape).Broadcasts ⟨2, ![M, N]⟩) :
    addf (matmul (DotDims.plain M K N) none (truncf .bf16 (shapeCast ⟨2, ![M, K]⟩ x hc) hx) (truncf .bf16 w hx)
          (constant ⟨2, ![M, N]⟩ .f32 0x00000000#32))
        (broadcastTo ⟨2, ![M, N]⟩ (shapeCast ⟨2, ![1, N]⟩ b h1) h2)
      = affine x w b := by
  rw [shapeCast_self]
  exact kernelAffine_eq x w b hx h1 h2

/-! ## Two products and a bias row -/

/-- Entry (r, c) is the sum over `k` of `x(r,k)·ws(k,c)`, plus the sum over `k` of `a(r,k)·wn(k,c)`, plus `b(c)`. -/
def sageRows (x a : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  fun i => ((∑ k : Fin K, x (ix2 (i 0 : Fin M) k) * ws (ix2 k (i 1 : Fin N)))
      + ∑ k : Fin K, a (ix2 (i 0 : Fin M) k) * wn (ix2 k (i 1 : Fin N))) + b (ix1 (i 1 : Fin N))

theorem sageRows_apply (x a : (⟨2, ![M, K]⟩ : Shape).Idx → EReal) (ws wn : (⟨2, ![K, N]⟩ : Shape).Idx → EReal)
    (b : (⟨1, ![N]⟩ : Shape).Idx → EReal) (r : Fin M) (c : Fin N) :
    sageRows x a ws wn b (ix2 r c)
      = ((∑ k : Fin K, x (ix2 r k) * ws (ix2 k c)) + ∑ k : Fin K, a (ix2 r k) * wn (ix2 k c)) + b (ix1 c) := rfl

/-- A block of rows of the combine step is the combine step of those rows of both operands. -/
theorem sageRows_congr {M' : ℕ} (x a : (⟨2, ![M, K]⟩ : Shape).Idx → EReal) (ws wn : (⟨2, ![K, N]⟩ : Shape).Idx → EReal)
    (b : (⟨1, ![N]⟩ : Shape).Idx → EReal) (x' a' : (⟨2, ![M', K]⟩ : Shape).Idx → EReal)
    (ws' wn' : (⟨2, ![K, N]⟩ : Shape).Idx → EReal) (b' : (⟨1, ![N]⟩ : Shape).Idx → EReal) (r : Fin M) (r' : Fin M') (c : Fin N)
    (hx : ∀ k : Fin K, x (ix2 r k) = x' (ix2 r' k)) (ha : ∀ k : Fin K, a (ix2 r k) = a' (ix2 r' k))
    (hws : ∀ k : Fin K, ws (ix2 k c) = ws' (ix2 k c)) (hwn : ∀ k : Fin K, wn (ix2 k c) = wn' (ix2 k c))
    (hb : b (ix1 c) = b' (ix1 c)) :
    sageRows x a ws wn b (ix2 r c) = sageRows x' a' ws' wn' b' (ix2 r' c) := by
  rw [sageRows_apply, sageRows_apply, hb,
    Finset.sum_congr rfl fun k _ => show x (ix2 r k) * ws (ix2 k c) = x' (ix2 r' k) * ws' (ix2 k c) by rw [hx k, hws k],
    Finset.sum_congr rfl fun k _ => show a (ix2 r k) * wn (ix2 k c) = a' (ix2 r' k) * wn' (ix2 k c) by rw [ha k, hwn k]]

/-- The host's spelling: the two products added, plus the bias as one row broadcast down the rows. -/
theorem hostSage_eq (x a : FVec Ideal ⟨2, ![M, K]⟩ .f32) (ws wn : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none x ws) (Host.dotGeneral (DotDims.plain M K N) none a wn))
        (broadcastInDim ⟨2, ![M, N]⟩ ![0, 1] h2 (broadcastInDim ⟨2, ![1, N]⟩ ![1] h1 b))
      = sageRows x a ws wn b := by
  funext i
  obtain ⟨r, c, rfl⟩ : ∃ (r : Fin M) (c : Fin N), i = ix2 r c := ⟨i 0, i 1, eq_ix2 i⟩
  rw [addf_apply, addf_apply, dotGeneral_plain_apply, dotGeneral_plain_apply, broadcastInDim_oneRow_apply, sageRows_apply]
  congr 1
  refine broadcastInDim_apply ![1] h1 b (ix2 (0 : Fin 1) c) (ix1 c) ?_
  intro ax
  match ax with
  | ⟨0, _⟩ =>
    show c.val = if N = 1 then 0 else c.val
    split
    · have := c.isLt; omega
    · rfl

/-- A kernel's spelling: the two products of narrowed operands into zero accumulators added, plus the bias cast to one
    row and broadcast down the rows. -/
theorem kernelSage_eq (x a : FVec Ideal ⟨2, ![M, K]⟩ .f32) (ws wn : FVec Ideal ⟨2, ![K, N]⟩ .f32) (b : FVec Ideal ⟨1, ![N]⟩ .f32)
    (hx : FTy.bf16.bits < FTy.f32.bits)
    (h1 : (⟨1, ![N]⟩ : Shape).ShapeCasts ⟨2, ![1, N]⟩) (h2 : (⟨2, ![1, N]⟩ : Shape).Broadcasts ⟨2, ![M, N]⟩) :
    addf (addf (matmul (DotDims.plain M K N) none (truncf .bf16 x hx) (truncf .bf16 ws hx) (constant ⟨2, ![M, N]⟩ .f32 0x00000000#32))
          (matmul (DotDims.plain M K N) none (truncf .bf16 a hx) (truncf .bf16 wn hx) (constant ⟨2, ![M, N]⟩ .f32 0x00000000#32)))
        (broadcastTo ⟨2, ![M, N]⟩ (shapeCast ⟨2, ![1, N]⟩ b h1) h2)
      = sageRows x a ws wn b := by
  funext i
  obtain ⟨r, c, rfl⟩ : ∃ (r : Fin M) (c : Fin N), i = ix2 r c := ⟨i 0, i 1, eq_ix2 i⟩
  rw [addf_apply, addf_apply, matmul_plain_zero_apply, matmul_plain_zero_apply, broadcastTo_1b_ab_apply, shapeCast_a_1a_apply,
    sageRows_apply]
  rfl

/-- The same when the kernel first casts both row operands to their own shape, which is the identity. -/
theorem kernelSageCast_eq (x a : FVec Ideal ⟨2, ![M, K]⟩ .f32) (ws wn : FVec Ideal ⟨2, ![K, N]⟩ .f32) (b : FVec Ideal ⟨1, ![N]⟩ .f32)
    (hx : FTy.bf16.bits < FTy.f32.bits) (hc : (⟨2, ![M, K]⟩ : Shape).ShapeCasts ⟨2, ![M, K]⟩)
    (h1 : (⟨1, ![N]⟩ : Shape).ShapeCasts ⟨2, ![1, N]⟩) (h2 : (⟨2, ![1, N]⟩ : Shape).Broadcasts ⟨2, ![M, N]⟩) :
    addf (addf (matmul (DotDims.plain M K N) none (truncf .bf16 (shapeCast ⟨2, ![M, K]⟩ x hc) hx) (truncf .bf16 ws hx)
            (constant ⟨2, ![M, N]⟩ .f32 0x00000000#32))
          (matmul (DotDims.plain M K N) none (truncf .bf16 (shapeCast ⟨2, ![M, K]⟩ a hc) hx) (truncf .bf16 wn hx)
            (constant ⟨2, ![M, N]⟩ .f32 0x00000000#32)))
        (broadcastTo ⟨2, ![M, N]⟩ (shapeCast ⟨2, ![1, N]⟩ b h1) h2)
      = sageRows x a ws wn b := by
  rw [shapeCast_self, shapeCast_self]
  exact kernelSage_eq x a ws wn b hx h1 h2

/-! ## The rectifier -/

/-- Each entry's maximum with the zero word. -/
def relu {s : Shape} (y : FVec Ideal s .f32) : FVec Ideal s .f32 :=
  maximumf y (broadcast s (Scalar.ofBits (F := Ideal) .f32 0x00000000#32))

/-- Entries that agree have the same rectified value. -/
theorem relu_congr {s s' : Shape} (y : FVec Ideal s .f32) (y' : FVec Ideal s' .f32) (i : s.Idx) (i' : s'.Idx) (h : y i = y' i') :
    relu y i = relu y' i' :=
  congrArg (fun v => max v (Scalar.ofBits (F := Ideal) .f32 0x00000000#32)) h

/-- The host's spelling: the maximum with a scalar zero constant broadcast to the shape. -/
theorem hostRelu_eq {s : Shape} (y : FVec Ideal s .f32) (h : (⟨0, ![]⟩ : Shape).BroadcastsInDim s ![]) :
    maximumf y (broadcastInDim s ![] h (constant ⟨0, ![]⟩ .f32 0x00000000#32)) = relu y := by
  rw [broadcastInDim_constant]; rfl

end Cert.PlainDot

end
-- ==== Proof.Encode0.lean ====
/-
  The first table's encoder, as the run leaves it.

  The kernel works on five blocks of 5000 rows. At a block it multiplies the block's 5000×32 rows by the whole 32×128
  matrix and adds the bias row: that is rows 5000·t … 5000·t + 4999 of the affine map of the whole 25000×32 table, because
  an entry of an affine map depends on its own row of the table only. The five blocks tile the 25000 rows, so the array
  the calls write back ends holding the affine map of the table, whatever the table, matrix and bias are when the
  kernel is entered.
-/
import proofs.«169009_j58179626992415_1_alg».proof.Proof.Gen.KernelIdeal.Frame
import proofs.«169009_j58179626992415_1_alg».proof.Proof.LibPlainDot
import Idealize.ShloMosaic.Lib.Pipeline.Value

set_option maxRecDepth 16384

noncomputable section

namespace Cert.KernelIdeal.Encode0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PlainDot

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- What the body stores is the affine map of the blocks it loaded. -/
theorem payload (x0 : Vec Ideal S5000x32 .f32) (x1 : Vec Ideal S32x128 .f32) (x2 : Vec Ideal S128 .f32) :
    k0_pay1 (F := Ideal) x0 x1 x2 = affine (M := 5000) (K := 32) (N := 128) x0 x1 x2 := by
  unfold k0_pay1
  exact kernelAffine_eq (M := 5000) (K := 32) (N := 128) x0 x1 x2 _ _ _

/-- The block indices over the grid: the table's and the result's row block is the point, every other block index zero. -/
theorem block_index : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- What point `t` writes back is rows 5000·t … of the affine map of the whole table. -/
theorem flushed_rows (c : Dev nD) (t : Fin cfg0.N) :
    (dat0 V c).flushed 3 t = ((cfg0.win 3).blk t).view.read (Elt Ideal)
      (affine (M := 25000) (K := 32) (N := 128) (V c main_arg0) (V c main_arg2) (V c main_arg3)) := by
  show (cfg0.win 3).cut (grid0.coords t) ((dat0 V c).after 3 t) = _
  rw [after0_3]
  unfold out0_3
  rw [View.canon_unit_zero origin2]
  simp only [View.ld_unit_zero (S := S5000x32) origin2, View.ld_unit_zero (S := S32x128) origin2, View.ld_unit_zero (S := S128) origin1]
  rw [payload]
  obtain ⟨e0, e1, e2, e3, e4, e5, e6⟩ := block_index t
  have ht : t.val < 5 := t.isLt
  funext j
  obtain ⟨p, q, rfl⟩ : ∃ (p : Fin 5000) (q : Fin 128), j = ix2 p q := ⟨j 0, j 1, eq_ix2 j⟩
  have hp : p.val < 5000 := p.isLt
  show affine (M := 5000) (K := 32) (N := 128) (iblk0 V c 0 t) (iblk0 V c 1 t) (iblk0 V c 2 t) (ix2 p q)
    = affine (M := 25000) (K := 32) (N := 128) (V c main_arg0) (V c main_arg2) (V c main_arg3) (((cfg0.win 3).blk t).view.emb (ix2 p q))
  have hrow : ((cfg0.win 3).blk t).view.emb (ix2 p q) = ix2 (⟨t.val * 5000 + p.val, by omega⟩ : Fin 25000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [hrow]
  refine affine_congr _ _ _ _ _ _ p _ q (fun k => ?_) (fun k => ?_) ?_
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 32 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 32 + 1 * k.val = k.val; omega
    | ⟨1, _⟩ => show win0_1.index t (1 : Fin 2) * 128 + 1 * q.val = q.val; omega
  · show V c main_arg3 (((cfg0.win 2).blk t).view.emb (ix1 q)) = V c main_arg3 (ix1 q)
    refine congrArg _ (funext fun a => Fin.ext ?_)
    match a with
    | ⟨0, _⟩ => show win0_2.index t (0 : Fin 1) * 128 + 1 * q.val = q.val; omega

/-- An index of the result array is in point `t`'s block iff each coordinate is in the block's range on its axis. -/
theorem mem_block (t : Fin cfg0.N) (i : S25000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row `r` of the result is written by point `r / 5000`. -/
theorem covered (i : S25000x128.Idx) : ∃ t : Fin cfg0.N, (cfg0.win 3).flush t = true ∧ i ∈ ((cfg0.win 3).blk t).view.set := by
  have hi0 : (i 0).val < 25000 := (i 0).isLt
  have hi1 : (i 1).val < 128 := (i 1).isLt
  have hlt : (i 0).val / 5000 < 5 := by omega
  obtain ⟨e0, e1, -⟩ := block_index ⟨(i 0).val / 5000, hlt⟩
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- The array the calls write back ends holding the affine map of the table as the kernel finds it. -/
theorem value (c : Dev nD) : (dat0 V c).arrAt 3 cfg0.N
    = affine (M := 25000) (K := 32) (N := 128) (V c main_arg0) (V c main_arg2) (V c main_arg3) :=
  (dat0 V c).arrAt_eq_of_cover 3 _ (fun t _ => flushed_rows V c t) covered

end Cert.KernelIdeal.Encode0

end
-- ==== Proof.Encode1.lean ====
/-
  The second table's encoder, as the run leaves it.

  The kernel works on five blocks of 5000 rows. At a block it multiplies the block's 5000×32 rows by the whole 32×128
  matrix and adds the bias row: that is rows 5000·t … 5000·t + 4999 of the affine map of the whole 25000×32 table, because
  an entry of an affine map depends on its own row of the table only. The five blocks tile the 25000 rows, so the array
  the calls write back ends holding the affine map of the table, whatever the table, matrix and bias are when the
  kernel is entered.
-/
import proofs.«169009_j58179626992415_1_alg».proof.Proof.Gen.KernelIdeal.Frame
import proofs.«169009_j58179626992415_1_alg».proof.Proof.LibPlainDot
import Idealize.ShloMosaic.Lib.Pipeline.Value

set_option maxRecDepth 16384

noncomputable section

namespace Cert.KernelIdeal.Encode1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PlainDot

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- What the body stores is the affine map of the blocks it loaded. -/
theorem payload (x0 : Vec Ideal S5000x32 .f32) (x1 : Vec Ideal S32x128 .f32) (x2 : Vec Ideal S128 .f32) :
    k1_pay1 (F := Ideal) x0 x1 x2 = affine (M := 5000) (K := 32) (N := 128) x0 x1 x2 := by
  unfold k1_pay1
  exact kernelAffine_eq (M := 5000) (K := 32) (N := 128) x0 x1 x2 _ _ _

/-- The block indices over the grid: the table's and the result's row block is the point, every other block index zero. -/
theorem block_index : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

/-- What point `t` writes back is rows 5000·t … of the affine map of the whole table. -/
theorem flushed_rows (c : Dev nD) (t : Fin cfg1.N) :
    (dat1 V c).flushed 3 t = ((cfg1.win 3).blk t).view.read (Elt Ideal)
      (affine (M := 25000) (K := 32) (N := 128) (V c main_arg1) (V c main_arg4) (V c main_arg5)) := by
  show (cfg1.win 3).cut (grid1.coords t) ((dat1 V c).after 3 t) = _
  rw [after1_3]
  unfold out1_3
  rw [View.canon_unit_zero origin2]
  simp only [View.ld_unit_zero (S := S5000x32) origin2, View.ld_unit_zero (S := S32x128) origin2, View.ld_unit_zero (S := S128) origin1]
  rw [payload]
  obtain ⟨e0, e1, e2, e3, e4, e5, e6⟩ := block_index t
  have ht : t.val < 5 := t.isLt
  funext j
  obtain ⟨p, q, rfl⟩ : ∃ (p : Fin 5000) (q : Fin 128), j = ix2 p q := ⟨j 0, j 1, eq_ix2 j⟩
  have hp : p.val < 5000 := p.isLt
  show affine (M := 5000) (K := 32) (N := 128) (iblk1 V c 0 t) (iblk1 V c 1 t) (iblk1 V c 2 t) (ix2 p q)
    = affine (M := 25000) (K := 32) (N := 128) (V c main_arg1) (V c main_arg4) (V c main_arg5) (((cfg1.win 3).blk t).view.emb (ix2 p q))
  have hrow : ((cfg1.win 3).blk t).view.emb (ix2 p q) = ix2 (⟨t.val * 5000 + p.val, by omega⟩ : Fin 25000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hrow]
  refine affine_congr _ _ _ _ _ _ p _ q (fun k => ?_) (fun k => ?_) ?_
  · show V c main_arg1 (((cfg1.win 0).blk t).view.emb (ix2 p k)) = V c main_arg1 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 32 + 1 * k.val = k.val; omega
  · show V c main_arg4 (((cfg1.win 1).blk t).view.emb (ix2 k q)) = V c main_arg4 (ix2 k q)
    refine congrArg _ (funext fun a => Fin.ext ?_)
    match a with
    | ⟨0, _⟩ => show win1_1.index t (0 : Fin 2) * 32 + 1 * k.val = k.val; omega
    | ⟨1, _⟩ => show win1_1.index t (1 : Fin 2) * 128 + 1 * q.val = q.val; omega
  · show V c main_arg5 (((cfg1.win 2).blk t).view.emb (ix1 q)) = V c main_arg5 (ix1 q)
    refine congrArg _ (funext fun a => Fin.ext ?_)
    match a with
    | ⟨0, _⟩ => show win1_2.index t (0 : Fin 1) * 128 + 1 * q.val = q.val; omega

/-- An index of the result array is in point `t`'s block iff each coordinate is in the block's range on its axis. -/
theorem mem_block (t : Fin cfg1.N) (i : S25000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v1).slice (win1_3.rect t)).set ↔ _
  rw [View.set_slice_whole, Rect.mem_set_unit]
  exact Iff.rfl

/-- Row `r` of the result is written by point `r / 5000`. -/
theorem covered (i : S25000x128.Idx) : ∃ t : Fin cfg1.N, (cfg1.win 3).flush t = true ∧ i ∈ ((cfg1.win 3).blk t).view.set := by
  have hi0 : (i 0).val < 25000 := (i 0).isLt
  have hi1 : (i 1).val < 128 := (i 1).isLt
  have hlt : (i 0).val / 5000 < 5 := by omega
  obtain ⟨e0, e1, -⟩ := block_index ⟨(i 0).val / 5000, hlt⟩
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e1]; omega

/-- The array the calls write back ends holding the affine map of the table as the kernel finds it. -/
theorem value (c : Dev nD) : (dat1 V c).arrAt 3 cfg1.N
    = affine (M := 25000) (K := 32) (N := 128) (V c main_arg1) (V c main_arg4) (V c main_arg5) :=
  (dat1 V c).arrAt_eq_of_cover 3 _ (fun t _ => flushed_rows V c t) covered

end Cert.KernelIdeal.Encode1

end
-- ==== Proof.Layer1.lean ====
/-
  The first layer's combine step and rectifier, as the run leaves them.

  The kernel works on ten blocks of 5000 nodes. At a block it multiplies the nodes' own 5000×128 rows by one whole
  128×128 matrix and the neighbours' mean rows by another, adds the two products and the bias row, and takes the maximum
  with zero: rows 5000·t … 5000·t + 4999 of the rectified combine step of the whole 50000×128 arrays, since an entry
  depends on its own row of both arrays only. The ten blocks tile the 50000 rows, so the array written back ends holding
  the rectified combine step of the arrays as the kernel finds them.
-/
import proofs.«169009_j58179626992415_1_alg».proof.Proof.Gen.KernelIdeal.Frame
import proofs.«169009_j58179626992415_1_alg».proof.Proof.LibPlainDot
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PlainDot

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- What the body stores is the rectified combine step of the blocks it loaded. -/
theorem payload (x0 x1 : Vec Ideal S5000x128 .f32) (x2 x3 : Vec Ideal S128x128 .f32) (x4 : Vec Ideal S128 .f32) :
    k2_pay1 (F := Ideal) x0 x1 x2 x3 x4 = relu (sageRows (M := 5000) (K := 128) (N := 128) x0 x1 x2 x3 x4) := by
  unfold k2_pay1
  exact congrArg relu (kernelSageCast_eq (M := 5000) (K := 128) (N := 128) x0 x1 x2 x3 x4 _ _ _ _)

/-- The block indices over the grid: the two row arrays' and the result's row block is the point, every other block index
    zero. -/
theorem block_index : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 :=
  (by decide +kernel : ∀ t : Fin grid2.N, _)

/-- What point `t` writes back is rows 5000·t … of the rectified combine step of the whole arrays. -/
theorem flushed_rows (c : Dev nD) (t : Fin cfg2.N) :
    (dat2 V c).flushed 5 t = ((cfg2.win 5).blk t).view.read (Elt Ideal)
      (relu (sageRows (M := 50000) (K := 128) (N := 128) (V c main_v9) (V c main_v32) (V c main_arg6) (V c main_arg7) (V c main_arg8))) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2, View.ld_unit_zero (S := S128) origin1]
  rw [payload]
  obtain ⟨e0, e1, e2, e3, e4, e5, e6, e7, e8, e9, e10⟩ := block_index t
  have ht : t.val < 10 := t.isLt
  funext j
  obtain ⟨p, q, rfl⟩ : ∃ (p : Fin 5000) (q : Fin 128), j = ix2 p q := ⟨j 0, j 1, eq_ix2 j⟩
  have hp : p.val < 5000 := p.isLt
  show relu (sageRows (M := 5000) (K := 128) (N := 128) (iblk2 V c 0 t) (iblk2 V c 1 t) (iblk2 V c 2 t) (iblk2 V c 3 t) (iblk2 V c 4 t)) (ix2 p q)
    = relu (sageRows (M := 50000) (K := 128) (N := 128) (V c main_v9) (V c main_v32) (V c main_arg6) (V c main_arg7) (V c main_arg8))
        (((cfg2.win 5).blk t).view.emb (ix2 p q))
  have hrow : ((cfg2.win 5).blk t).view.emb (ix2 p q) = ix2 (⟨t.val * 5000 + p.val, by omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [hrow]
  refine relu_congr _ _ _ _ ?_
  refine sageRows_congr _ _ _ _ _ _ _ _ _ _ p _ q (fun k => ?_) (fun k => ?_) (fun k => ?_) (fun k => ?_) ?_
  · show V c main_v9 (((cfg2.win 0).blk t).view.emb (ix2 p k)) = V c main_v9 (ix2 _ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v32 (((cfg2.win 1).blk t).view.emb (ix2 p k)) = V c main_v32 (ix2 _ k)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · show V c main_arg6 (((cfg2.win 2).blk t).view.emb (ix2 k q)) = V c main_arg6 (ix2 k q)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · show V c main_arg7 (((cfg2.win 3).blk t).view.emb (ix2 k q)) = V c main_arg7 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_arg8 (((cfg2.win 4).blk t).view.emb (ix1 q)) = V c main_arg8 (ix1 q)
    refine congrArg _ (funext fun a => Fin.ext ?_)
    match a with
    | ⟨0, _⟩ => show win2_4.index t (0 : Fin 1) * 128 + 1 * q.val = q.val; omega

/-- An index of the result array is in point `t`'s block iff each coordinate is in the block's range on its axis. -/
theorem mem_block (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v33).slice (win2_5.rect t)).set ↔ _
  rw [View.set_slice_whole, Rect.mem_set_unit]
  exact Iff.rfl

/-- Row `r` of the result is written by point `r / 5000`. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hlt : (i 0).val / 5000 < 10 := by omega
  obtain ⟨e0, e1, -⟩ := block_index ⟨(i 0).val / 5000, hlt⟩
  refine ⟨⟨(i 0).val / 5000, hlt⟩, flush2_5 _, ?_⟩
  rw [mem_block]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e1]; omega

/-- The array written back ends holding the rectified combine step of the arrays as the kernel finds them. -/
theorem value (c : Dev nD) : (dat2 V c).arrAt 5 cfg2.N
    = relu (sageRows (M := 50000) (K := 128) (N := 128) (V c main_v9) (V c main_v32) (V c main_arg6) (V c main_arg7) (V c main_arg8)) :=
  (dat2 V c).arrAt_eq_of_cover 5 _ (fun t _ => flushed_rows V c t) covered

end Cert.KernelIdeal.Layer1

end
-- ==== Proof.Layer2.lean ====
/-
  The second layer's combine step, as the run leaves it.

  Ten blocks of 5000 nodes again: at a block the kernel multiplies the first layer's 5000×128 rows by one whole 128×128
  matrix and their neighbours' mean rows by another, and adds the two products and the bias row; nothing is rectified.
  That is rows 5000·t … 5000·t + 4999 of the combine step of the whole 50000×128 arrays, and the ten blocks tile the 50000
  rows, so the array written back ends holding the combine step of the arrays as the kernel finds them.
-/
import proofs.«169009_j58179626992415_1_alg».proof.Proof.Gen.KernelIdeal.Frame
import proofs.«169009_j58179626992415_1_alg».proof.Proof.LibPlainDot
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PlainDot

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- What the body stores is the combine step of the blocks it loaded. -/
theorem payload (x0 x1 : Vec Ideal S5000x128 .f32) (x2 x3 : Vec Ideal S128x128 .f32) (x4 : Vec Ideal S128 .f32) :
    k3_pay1 (F := Ideal) x0 x1 x2 x3 x4 = sageRows (M := 5000) (K := 128) (N := 128) x0 x1 x2 x3 x4 := by
  unfold k3_pay1
  exact kernelSageCast_eq (M := 5000) (K := 128) (N := 128) x0 x1 x2 x3 x4 _ _ _ _

/-- The block indices over the grid: the two row arrays' and the result's row block is the point, every other block index
    zero. -/
theorem block_index : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 :=
  (by decide +kernel : ∀ t : Fin grid3.N, _)

/-- What point `t` writes back is rows 5000·t … of the combine step of the whole arrays. -/
theorem flushed_rows (c : Dev nD) (t : Fin cfg3.N) :
    (dat3 V c).flushed 5 t = ((cfg3.win 5).blk t).view.read (Elt Ideal)
      (sageRows (M := 50000) (K := 128) (N := 128) (V c main_v33) (V c main_v45) (V c main_arg9) (V c main_arg10) (V c main_arg11)) := by
  show (cfg3.win 5).cut (grid3.coords t) ((dat3 V c).after 5 t) = _
  rw [after3_5]
  unfold out3_5
  rw [View.canon_unit_zero origin2]
  simp only [View.ld_unit_zero (S := S5000x128) origin2, View.ld_unit_zero (S := S128x128) origin2, View.ld_unit_zero (S := S128) origin1]
  rw [payload]
  obtain ⟨e0, e1, e2, e3, e4, e5, e6, e7, e8, e9, e10⟩ := block_index t
  have ht : t.val < 10 := t.isLt
  funext j
  obtain ⟨p, q, rfl⟩ : ∃ (p : Fin 5000) (q : Fin 128), j = ix2 p q := ⟨j 0, j 1, eq_ix2 j⟩
  have hp : p.val < 5000 := p.isLt
  show sageRows (M := 5000) (K := 128) (N := 128) (iblk3 V c 0 t) (iblk3 V c 1 t) (iblk3 V c 2 t) (iblk3 V c 3 t) (iblk3 V c 4 t) (ix2 p q)
    = sageRows (M := 50000) (K := 128) (N := 128) (V c main_v33) (V c main_v45) (V c main_arg9) (V c main_arg10) (V c main_arg11)
        (((cfg3.win 5).blk t).view.emb (ix2 p q))
  have hrow : ((cfg3.win 5).blk t).view.emb (ix2 p q) = ix2 (⟨t.val * 5000 + p.val, by omega⟩ : Fin 50000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  rw [hrow]
  refine sageRows_congr _ _ _ _ _ _ _ _ _ _ p _ q (fun k => ?_) (fun k => ?_) (fun k => ?_) (fun k => ?_) ?_
  · show V c main_v33 (((cfg3.win 0).blk t).view.emb (ix2 p k)) = V c main_v33 (ix2 _ k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · show V c main_v45 (((cfg3.win 1).blk t).view.emb (ix2 p k)) = V c main_v45 (ix2 _ k)
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  · show V c main_arg9 (((cfg3.win 2).blk t).view.emb (ix2 k q)) = V c main_arg9 (ix2 k q)
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · show V c main_arg10 (((cfg3.win 3).blk t).view.emb (ix2 k q)) = V c main_arg10 (ix2 k q)
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  · show V c main_arg11 (((cfg3.win 4).blk t).view.emb (ix1 q)) = V c main_arg11 (ix1 q)
    refine congrArg _ (funext fun a => Fin.ext ?_)
    match a with
    | ⟨0, _⟩ => show win3_4.index t (0 : Fin 1) * 128 + 1 * q.val = q.val; omega

/-- An index of the result array is in point `t`'s block iff each coordinate is in the block's range on its axis. -/
theorem mem_block (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v46).slice (win3_5.rect t)).set ↔ _
  rw [View.set_slice_whole, Rect.mem_set_unit]
  exact Iff.rfl

/-- Row `r` of the result is written by point `r / 5000`. -/
theorem covered (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hlt : (i 0).val / 5000 < 10 := by omega
  obtain ⟨e0, e1, -⟩ := block_index ⟨(i 0).val / 5000, hlt⟩
  refine ⟨⟨(i 0).val / 5000, hlt⟩, flush3_5 _, ?_⟩
  rw [mem_block]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    rw [e1]; omega

/-- The array written back ends holding the combine step of the arrays as the kernel finds them. -/
theorem value (c : Dev nD) : (dat3 V c).arrAt 5 cfg3.N
    = sageRows (M := 50000) (K := 128) (N := 128) (V c main_v33) (V c main_v45) (V c main_arg9) (V c main_arg10) (V c main_arg11) :=
  (dat3 V c).arrAt_eq_of_cover 5 _ (fun t _ => flushed_rows V c t) covered

end Cert.KernelIdeal.Layer2

end
-- ==== Proof.Head.lean ====
/-
  The head, as the run leaves it.

  Ten blocks of 5000 nodes: at a block the kernel multiplies the second layer's 5000×128 rows by the whole 128×16 matrix
  and adds the bias row of 16 entries, which is rows 5000·t … 5000·t + 4999 of the affine map of the whole 50000×128 array.
  The ten blocks tile the 50000 rows, so the result array ends holding the affine map of the array as the kernel finds it.
-/
import proofs.«169009_j58179626992415_1_alg».proof.Proof.Gen.KernelIdeal.Frame
import proofs.«169009_j58179626992415_1_alg».proof.Proof.LibPlainDot
import Idealize.ShloMosaic.Lib.Pipeline.Value

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PlainDot

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- What the body stores is the affine map of the blocks it loaded. -/
theorem payload (x0 : Vec Ideal S5000x128 .f32) (x1 : Vec Ideal S128x16 .f32) (x2 : Vec Ideal S16 .f32) :
    k4_pay1 (F := Ideal) x0 x1 x2 = affine (M := 5000) (K := 128) (N := 16) x0 x1 x2 := by
  unfold k4_pay1
  exact kernelAffineCast_eq (M := 5000) (K := 128) (N := 16) x0 x1 x2 _ _ _ _

/-- The block indices over the grid: the rows' and the result's row block is the point, every other block index zero. -/
theorem block_index : ∀ t : Fin cfg4.N, win4_3.index t (0 : Fin 2) = t.val ∧ win4_3.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 1) = 0 :=
  (by decide +kernel : ∀ t : Fin grid4.N, _)

/-- What point `t` writes back is rows 5000·t … of the affine map of the whole array. -/
theorem flushed_rows (c : Dev nD) (t : Fin cfg4.N) :
    (dat4 V c).flushed 3 t = ((cfg4.win 3).blk t).view.read (Elt Ideal)
      (affine (M := 50000) (K := 128) (N := 16) (V c main_v46) (V c main_arg12) (V c main_arg13)) := by
  show (cfg4.win 3).cut (grid4.coords t) ((dat4 V c).after 3 t) = _
  rw [after4_3]
  unfold out4_3
  rw [View.canon_unit_zero origin2]
  simp only [View.ld_unit_zero (S := S5000x128) origin2, View.ld_unit_zero (S := S128x16) origin2, View.ld_unit_zero (S := S16) origin1]
  rw [payload]
  obtain ⟨e0, e1, e2, e3, e4, e5, e6⟩ := block_index t
  have ht : t.val < 10 := t.isLt
  funext j
  obtain ⟨p, q, rfl⟩ : ∃ (p : Fin 5000) (q : Fin 16), j = ix2 p q := ⟨j 0, j 1, eq_ix2 j⟩
  have hp : p.val < 5000 := p.isLt
  show affine (M := 5000) (K := 128) (N := 16) (iblk4 V c 0 t) (iblk4 V c 1 t) (iblk4 V c 2 t) (ix2 p q)
    = affine (M := 50000) (K := 128) (N := 16) (V c main_v46) (V c main_arg12) (V c main_arg13) (((cfg4.win 3).blk t).view.emb (ix2 p q))
  have hrow : ((cfg4.win 3).blk t).view.emb (ix2 p q) = ix2 (⟨t.val * 5000 + p.val, by omega⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * q.val = q.val; omega
  rw [hrow]
  refine affine_congr _ _ _ _ _ _ p _ q (fun k => ?_) (fun k => ?_) ?_
  · show V c main_v46 (((cfg4.win 0).blk t).view.emb (ix2 p k)) = V c main_v46 (ix2 _ k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · show V c main_arg12 (((cfg4.win 1).blk t).view.emb (ix2 k q)) = V c main_arg12 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 16 + 1 * q.val = q.val; omega
  · show V c main_arg13 (((cfg4.win 2).blk t).view.emb (ix1 q)) = V c main_arg13 (ix1 q)
    refine congrArg _ (funext fun a => Fin.ext ?_)
    match a with
    | ⟨0, _⟩ => show win4_2.index t (0 : Fin 1) * 16 + 1 * q.val = q.val; omega

/-- An index of the result array is in point `t`'s block iff each coordinate is in the block's range on its axis. -/
theorem mem_block (t : Fin cfg4.N) (i : S50000x16.Idx) :
    i ∈ ((cfg4.win 3).blk t).view.set ↔ ∀ a : Fin 2, win4_3.index t a * S5000x16.size a ≤ (i a).val
      ∧ (i a).val < win4_3.index t a * S5000x16.size a + S5000x16.size a := by
  show i ∈ ((View.whole main_v47).slice (win4_3.rect t)).set ↔ _
  rw [View.set_slice_whole, Rect.mem_set_unit]
  exact Iff.rfl

/-- Row `r` of the result is written by point `r / 5000`. -/
theorem covered (i : S50000x16.Idx) : ∃ t : Fin cfg4.N, (cfg4.win 3).flush t = true ∧ i ∈ ((cfg4.win 3).blk t).view.set := by
  have hi0 : (i 0).val < 50000 := (i 0).isLt
  have hi1 : (i 1).val < 16 := (i 1).isLt
  have hlt : (i 0).val / 5000 < 10 := by omega
  obtain ⟨e0, e1, -⟩ := block_index ⟨(i 0).val / 5000, hlt⟩
  refine ⟨⟨(i 0).val / 5000, hlt⟩, flush4_3 _, ?_⟩
  rw [mem_block]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, hlt⟩ (1 : Fin 2) * 16 ≤ (i 1).val
      ∧ (i 1).val < win4_3.index ⟨(i 0).val / 5000, hlt⟩ (1 : Fin 2) * 16 + 16
    rw [e1]; omega

/-- The result array ends holding the affine map of the array as the kernel finds it. -/
theorem value (c : Dev nD) : (dat4 V c).arrAt 3 cfg4.N
    = affine (M := 50000) (K := 128) (N := 16) (V c main_v46) (V c main_arg12) (V c main_arg13) :=
  (dat4 V c).arrAt_eq_of_cover 3 _ (fun t _ => flushed_rows V c t) covered

end Cert.KernelIdeal.Head

end
-- ==== Proof.Model.lean ====
/-
  What both programs compute, as one function of the sixteen arguments.

  Two feature tables (25000 rows of 32 entries each) are encoded by an affine map into 128 columns and laid end to
  end; every graph node takes the row its index names (`nodeRows`). Two layers follow. A layer replaces a node's row
  by its own row times one matrix plus the MEAN of its in-neighbours' rows times another, plus a bias row
  (`sageRows`); the mean is the sum, over the edges that end at the node, of the rows at the edges' sources, divided by the
  number of those edges or by one when there is none (`meanRows`). The first layer is rectified. A last affine map
  takes the 128 columns to 16.
  The index arithmetic (a negative index counts from the end), the gather of rows and the sum into the edges' targets
  are written with the operations the two programs themselves apply, and are never opened.
-/
import proofs.«169009_j58179626992415_1_alg».proof.Proof.Gen.ReferenceIdeal
import proofs.«169009_j58179626992415_1_alg».proof.Proof.LibPlainDot

noncomputable section

namespace Cert.Model

open Cert.ReferenceIdeal Cert.ReferenceIdeal.Gen Idealize.ShloMosaic Idealize.ShloMosaic.TcCoe Cert.PlainDot

variable {F : FTy → Type} [FloatOps F]

/-- A node's index into the 50000 table rows, one start index per node; an index below zero counts from the end. -/
def rowStarts (n : (⟨S50000, .i32⟩ : BufTy).Contents (Elt F)) : (⟨S50000x1, .i32⟩ : BufTy).Contents (Elt F) :=
  broadcastInDim S50000x1 ![0] bcast_S50000_S50000x1_0
    (select (cmpi .slt n (broadcastInDim S50000 ![] bcast_S_S50000 (constantI S_ 32 0#32)))
      (addi n (broadcastInDim S50000 ![] bcast_S_S50000 (constantI S_ 32 50000#32))) n)

/-- Each node's row of the two encoded tables laid end to end. -/
def nodeRows (t0 t1 : (⟨S25000x128, .f32⟩ : BufTy).Contents (Elt F)) (n : (⟨S50000, .i32⟩ : BufTy).Contents (Elt F)) :
    (⟨S50000x128, .f32⟩ : BufTy).Contents (Elt F) :=
  Host.gather gather_S50000x128_S50000x1_S50000x128_1_0_n_n_0_1_1128
    (concatenate S50000x128 0 [⟨S25000x128, t0⟩, ⟨S25000x128, t1⟩] concatenates_S25000x128_S25000x128_S50000x128_d0) (rowStarts n)

/-- The edges' sources: row 0 of the edge list. -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' targets: row 1 of the edge list. -/
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- One start index per edge into the node rows, at its source; an index below zero counts from the end. -/
def srcStartsOf (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One target index per edge. -/
def dstStartsOf (d : (⟨S800000, .i32⟩ : BufTy).Contents (Elt F)) : (⟨S800000x1, .i32⟩ : BufTy).Contents (Elt F) :=
  broadcastInDim S800000x1 ![0] bcast_S800000_S800000x1_0 d

/-- How many edges end at each node, or one where none does, as a column. -/
def degree (e : (⟨S2x800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32)) (dstStartsOf (edgeDst e))
        (broadcastInDim S800000 ![] bcast_S_S800000 (constant S_ .f32 0x3F800000#32)))
      (broadcastInDim S50000 ![] bcast_S_S50000 (constant S_ .f32 0x3F800000#32)))

/-- The rows at the edges' sources `s` summed into the edges' targets `d`, each node's sum over its degree `g`. -/
def meanRowsOf (x : (⟨S50000x128, .f32⟩ : BufTy).Contents (Elt F)) (s d : (⟨S800000, .i32⟩ : BufTy).Contents (Elt F))
    (g : (⟨S50000x1, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) (dstStartsOf d)
      (Host.gather gather_S50000x128_S800000x1_S800000x128_1_0_n_n_0_1_1128 x (srcStartsOf s)))
    (broadcastInDim S50000x128 ![0, 1] bcast_S50000x1_S50000x128_0_1 g)

/-- The mean of each node's in-neighbours' rows over the edge list `e`. -/
def meanRows (x : (⟨S50000x128, .f32⟩ : BufTy).Contents (Elt F)) (e : (⟨S2x800000, .i32⟩ : BufTy).Contents (Elt F)) :
    (⟨S50000x128, .f32⟩ : BufTy).Contents (Elt F) :=
  meanRowsOf x (edgeSrc e) (edgeDst e) (degree e)

/-- The whole network at the ideal values. -/
def network (x0 x1 : (⟨S25000x32, .f32⟩ : BufTy).Contents (Elt Ideal)) (x2 : (⟨S32x128, .f32⟩ : BufTy).Contents (Elt Ideal))
    (x3 : (⟨S128, .f32⟩ : BufTy).Contents (Elt Ideal)) (x4 : (⟨S32x128, .f32⟩ : BufTy).Contents (Elt Ideal))
    (x5 : (⟨S128, .f32⟩ : BufTy).Contents (Elt Ideal)) (x6 x7 : (⟨S128x128, .f32⟩ : BufTy).Contents (Elt Ideal))
    (x8 : (⟨S128, .f32⟩ : BufTy).Contents (Elt Ideal)) (x9 x10 : (⟨S128x128, .f32⟩ : BufTy).Contents (Elt Ideal))
    (x11 : (⟨S128, .f32⟩ : BufTy).Contents (Elt Ideal)) (x12 : (⟨S128x16, .f32⟩ : BufTy).Contents (Elt Ideal))
    (x13 : (⟨S16, .f32⟩ : BufTy).Contents (Elt Ideal)) (x14 : (⟨S50000, .i32⟩ : BufTy).Contents (Elt Ideal))
    (x15 : (⟨S2x800000, .i32⟩ : BufTy).Contents (Elt Ideal)) : (⟨S50000x16, .f32⟩ : BufTy).Contents (Elt Ideal) :=
  let h0 : (⟨S50000x128, .f32⟩ : BufTy).Contents (Elt Ideal) :=
    nodeRows (affine (M := 25000) (K := 32) (N := 128) x0 x2 x3) (affine (M := 25000) (K := 32) (N := 128) x1 x4 x5) x14
  let h1 : (⟨S50000x128, .f32⟩ : BufTy).Contents (Elt Ideal) :=
    relu (sageRows (M := 50000) (K := 128) (N := 128) h0 (meanRows h0 x15) x6 x7 x8)
  let h2 : (⟨S50000x128, .f32⟩ : BufTy).Contents (Elt Ideal) :=
    sageRows (M := 50000) (K := 128) (N := 128) h1 (meanRows h1 x15) x9 x10 x11
  affine (M := 50000) (K := 128) (N := 16) h2 x12 x13

end Cert.Model

end
-- ==== Proof.KernelNetwork.lean ====
/-
  The kernel computes the network.

  The contents of the core's buffers at each boundary of @main are a fold from the launch memory: a kernel's arrays at
  what its calls write back, a host stretch's results at its operations' values, everything else as it was. Reading the
  fold backwards from the result: the head's output is the affine map of the second layer's rows (the head's value); those
  are the combine step of the first layer's rows and of their mean over the edges (the second layer's value; the mean is
  the second host stretch's result, computed from the edge lists and the degree column the first stretch left); the first
  layer's rows are the rectified combine step of the nodes' rows and of their mean (the first layer's value, over the first
  host stretch's results); the nodes' rows are gathered from the two encoders' tables. No kernel and no host operation
  writes an argument, so every argument is read as launched.
-/
import proofs.«169009_j58179626992415_1_alg».proof.Proof.KernelRun
import proofs.«169009_j58179626992415_1_alg».proof.Proof.Encode0
import proofs.«169009_j58179626992415_1_alg».proof.Proof.Encode1
import proofs.«169009_j58179626992415_1_alg».proof.Proof.Layer1
import proofs.«169009_j58179626992415_1_alg».proof.Proof.Layer2
import proofs.«169009_j58179626992415_1_alg».proof.Proof.Head
import proofs.«169009_j58179626992415_1_alg».proof.Proof.Model
import Idealize.ShloMosaic.Lib.StableHlo.Run

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen Cert.Model Cert.PlainDot

/-! ## The host operations between the kernels, from any contents -/

section Host

variable (W : Valuation τ sig (Elt Ideal))

/-- After the first stretch: the nodes' rows, gathered from the two tables laid end to end. -/
theorem host2_rows : StableHlo.after hostOps2 W (Proc.devRef .tc main_v9)
    = nodeRows (W (Proc.devRef .tc main_v0)) (W (Proc.devRef .tc main_v1)) (W (Proc.devRef .tc main_arg14)) := by
  after_results_simp
  rfl

set_option maxHeartbeats 4000000 in
/-- … and their mean over the edges. -/
theorem host2_mean : StableHlo.after hostOps2 W (Proc.devRef .tc main_v32)
    = meanRows (nodeRows (W (Proc.devRef .tc main_v0)) (W (Proc.devRef .tc main_v1)) (W (Proc.devRef .tc main_arg14)))
        (W (Proc.devRef .tc main_arg15)) := by
  after_results_simp
  rfl

/-- The first stretch also leaves the edges' sources, … -/
theorem host2_src : StableHlo.after hostOps2 W (Proc.devRef .tc main_v11) = edgeSrc (W (Proc.devRef .tc main_arg15)) := by
  after_results_simp
  rfl

/-- … their targets … -/
theorem host2_dst : StableHlo.after hostOps2 W (Proc.devRef .tc main_v13) = edgeDst (W (Proc.devRef .tc main_arg15)) := by
  after_results_simp
  rfl

set_option maxHeartbeats 4000000 in
/-- … and the degree column, which the second stretch reads again. -/
theorem host2_deg : StableHlo.after hostOps2 W (Proc.devRef .tc main_v20) = degree (W (Proc.devRef .tc main_arg15)) := by
  after_results_simp
  rfl

/-! The first stretch writes none of the later kernels' matrices and bias rows. -/

theorem host2_keep6 : StableHlo.after hostOps2 W (Proc.devRef .tc main_arg6) = W (Proc.devRef .tc main_arg6) := by
  after_results_simp
theorem host2_keep7 : StableHlo.after hostOps2 W (Proc.devRef .tc main_arg7) = W (Proc.devRef .tc main_arg7) := by
  after_results_simp
theorem host2_keep8 : StableHlo.after hostOps2 W (Proc.devRef .tc main_arg8) = W (Proc.devRef .tc main_arg8) := by
  after_results_simp
theorem host2_keep9 : StableHlo.after hostOps2 W (Proc.devRef .tc main_arg9) = W (Proc.devRef .tc main_arg9) := by
  after_results_simp
theorem host2_keep10 : StableHlo.after hostOps2 W (Proc.devRef .tc main_arg10) = W (Proc.devRef .tc main_arg10) := by
  after_results_simp
theorem host2_keep11 : StableHlo.after hostOps2 W (Proc.devRef .tc main_arg11) = W (Proc.devRef .tc main_arg11) := by
  after_results_simp
theorem host2_keep12 : StableHlo.after hostOps2 W (Proc.devRef .tc main_arg12) = W (Proc.devRef .tc main_arg12) := by
  after_results_simp
theorem host2_keep13 : StableHlo.after hostOps2 W (Proc.devRef .tc main_arg13) = W (Proc.devRef .tc main_arg13) := by
  after_results_simp

set_option maxHeartbeats 4000000 in
/-- After the second stretch: the mean of the first layer's rows over the edges the first stretch read. -/
theorem host3_mean : StableHlo.after hostOps3 W (Proc.devRef .tc main_v45)
    = meanRowsOf (W (Proc.devRef .tc main_v33)) (W (Proc.devRef .tc main_v11)) (W (Proc.devRef .tc main_v13))
        (W (Proc.devRef .tc main_v20)) := by
  after_results_simp
  rfl

/-! The second stretch writes neither the first layer's rows nor the later kernels' matrices and bias rows. -/

theorem host3_keep33 : StableHlo.after hostOps3 W (Proc.devRef .tc main_v33) = W (Proc.devRef .tc main_v33) := by
  after_results_simp
theorem host3_keep9 : StableHlo.after hostOps3 W (Proc.devRef .tc main_arg9) = W (Proc.devRef .tc main_arg9) := by
  after_results_simp
theorem host3_keep10 : StableHlo.after hostOps3 W (Proc.devRef .tc main_arg10) = W (Proc.devRef .tc main_arg10) := by
  after_results_simp
theorem host3_keep11 : StableHlo.after hostOps3 W (Proc.devRef .tc main_arg11) = W (Proc.devRef .tc main_arg11) := by
  after_results_simp
theorem host3_keep12 : StableHlo.after hostOps3 W (Proc.devRef .tc main_arg12) = W (Proc.devRef .tc main_arg12) := by
  after_results_simp
theorem host3_keep13 : StableHlo.after hostOps3 W (Proc.devRef .tc main_arg13) = W (Proc.devRef .tc main_arg13) := by
  after_results_simp

end Host

/-! ## The fold, read back -/

variable (m : (ℓ : Loc nD τ sig) → Buf (Elt Ideal) ℓ) (ρ : Dev nD → PrngReg) (c : Dev nD)

/-- The nodes' rows from the launch contents: the two encoded tables gathered. -/
def rows0 : (⟨Cert.ReferenceIdeal.S50000x128, .f32⟩ : BufTy).Contents (Elt Ideal) :=
  nodeRows
    (affine (M := 25000) (K := 32) (N := 128) (m ((c : Thread nD τ).loc main_arg0)) (m ((c : Thread nD τ).loc main_arg2))
      (m ((c : Thread nD τ).loc main_arg3)))
    (affine (M := 25000) (K := 32) (N := 128) (m ((c : Thread nD τ).loc main_arg1)) (m ((c : Thread nD τ).loc main_arg4))
      (m ((c : Thread nD τ).loc main_arg5)))
    (m ((c : Thread nD τ).loc main_arg14))

/-- The first layer's rows. -/
def rows1 : (⟨Cert.ReferenceIdeal.S50000x128, .f32⟩ : BufTy).Contents (Elt Ideal) :=
  relu (sageRows (M := 50000) (K := 128) (N := 128) (rows0 m c) (meanRows (rows0 m c) (m ((c : Thread nD τ).loc main_arg15)))
    (m ((c : Thread nD τ).loc main_arg6)) (m ((c : Thread nD τ).loc main_arg7)) (m ((c : Thread nD τ).loc main_arg8)))

/-- The second layer's rows. -/
def rows2 : (⟨Cert.ReferenceIdeal.S50000x128, .f32⟩ : BufTy).Contents (Elt Ideal) :=
  sageRows (M := 50000) (K := 128) (N := 128) (rows1 m c) (meanRows (rows1 m c) (m ((c : Thread nD τ).loc main_arg15)))
    (m ((c : Thread nD τ).loc main_arg9)) (m ((c : Thread nD τ).loc main_arg10)) (m ((c : Thread nD τ).loc main_arg11))

/-- The network of core `c`'s arguments as launched. -/
def ofLaunch : (⟨Cert.ReferenceIdeal.S50000x16, .f32⟩ : BufTy).Contents (Elt Ideal) :=
  network (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

theorem ofLaunch_eq : ofLaunch m c = affine (M := 50000) (K := 128) (N := 16) (rows2 m c) (m ((c : Thread nD τ).loc main_arg12))
    (m ((c : Thread nD τ).loc main_arg13)) := rfl

/-- A buffer neither encoder touches holds its launch contents after both. -/
theorem kept2 (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-- The first encoder's table, after both encoders. -/
theorem table0 : W2 m ρ c (Proc.devRef .tc main_v0)
    = affine (M := 25000) (K := 32) (N := 128) (m ((c : Thread nD τ).loc main_arg0)) (m ((c : Thread nD τ).loc main_arg2))
        (m ((c : Thread nD τ).loc main_arg3)) :=
  (W2_of_ne m ρ c main_v0 (by decide)).trans ((W1_arr m ρ c 3).trans (Encode0.value (V0 m ρ) c))

/-- The second encoder's table. -/
theorem table1 : W2 m ρ c (Proc.devRef .tc main_v1)
    = affine (M := 25000) (K := 32) (N := 128) (m ((c : Thread nD τ).loc main_arg1)) (m ((c : Thread nD τ).loc main_arg4))
        (m ((c : Thread nD τ).loc main_arg5)) := by
  have e1 : V1 m ρ c main_arg1 = m ((c : Thread nD τ).loc main_arg1) := W1_of_ne m ρ c main_arg1 (by decide)
  have e4 : V1 m ρ c main_arg4 = m ((c : Thread nD τ).loc main_arg4) := W1_of_ne m ρ c main_arg4 (by decide)
  have e5 : V1 m ρ c main_arg5 = m ((c : Thread nD τ).loc main_arg5) := W1_of_ne m ρ c main_arg5 (by decide)
  refine (W2_arr m ρ c 3).trans ((Encode1.value (V1 m ρ) c).trans ?_)
  rw [e1, e4, e5]

/-- The first layer's kernel is entered with the nodes' rows … -/
theorem entry1_rows : V3 m ρ c main_v9 = rows0 m c := by
  show StableHlo.after hostOps2 (W2 m ρ c) (Proc.devRef .tc main_v9) = _
  rw [host2_rows, table0, table1, kept2 m ρ c main_arg14 (by decide) (by decide)]
  rfl

/-- … and their mean over the edges. -/
theorem entry1_mean : V3 m ρ c main_v32 = meanRows (rows0 m c) (m ((c : Thread nD τ).loc main_arg15)) := by
  show StableHlo.after hostOps2 (W2 m ρ c) (Proc.devRef .tc main_v32) = _
  rw [host2_mean, table0, table1, kept2 m ρ c main_arg14 (by decide) (by decide), kept2 m ρ c main_arg15 (by decide) (by decide)]
  rfl

/-- An argument no kernel writes and no host operation writes, after the first stretch. -/
theorem kept3 (b : Ref sig .tc) (hk : StableHlo.after hostOps2 (W2 m ρ c) (Proc.devRef .tc b) = W2 m ρ c (Proc.devRef .tc b))
    (h0 : ∀ w, Pipeline.arrRef spec0 w ≠ b) (h1 : ∀ w, Pipeline.arrRef spec1 w ≠ b) :
    W3 m ρ c (Proc.devRef .tc b) = m ((c : Thread nD τ).loc b) :=
  hk.trans (kept2 m ρ c b h0 h1)

/-- The first layer's rows, after its kernel. -/
theorem layer1 : W4 m ρ c (Proc.devRef .tc main_v33) = rows1 m c := by
  have e6 : V3 m ρ c main_arg6 = m ((c : Thread nD τ).loc main_arg6) := kept3 m ρ c main_arg6 (host2_keep6 _) (by decide) (by decide)
  have e7 : V3 m ρ c main_arg7 = m ((c : Thread nD τ).loc main_arg7) := kept3 m ρ c main_arg7 (host2_keep7 _) (by decide) (by decide)
  have e8 : V3 m ρ c main_arg8 = m ((c : Thread nD τ).loc main_arg8) := kept3 m ρ c main_arg8 (host2_keep8 _) (by decide) (by decide)
  refine (W4_arr m ρ c 5).trans ((Layer1.value (V3 m ρ) c).trans ?_)
  rw [entry1_rows, entry1_mean, e6, e7, e8]
  rfl

/-- A buffer the first layer's kernel does not touch is as the first stretch left it. -/
theorem kept4 (b : Ref sig .tc) (h2 : ∀ w, Pipeline.arrRef spec2 w ≠ b) :
    W4 m ρ c (Proc.devRef .tc b) = StableHlo.after hostOps2 (W2 m ρ c) (Proc.devRef .tc b) :=
  W4_of_ne m ρ c b h2

/-- The second layer's kernel is entered with the first layer's rows … -/
theorem entry2_rows : V5 m ρ c main_v33 = rows1 m c := by
  show StableHlo.after hostOps3 (W4 m ρ c) (Proc.devRef .tc main_v33) = _
  rw [host3_keep33, layer1]

/-- … and their mean over the same edges. -/
theorem entry2_mean : V5 m ρ c main_v45 = meanRows (rows1 m c) (m ((c : Thread nD τ).loc main_arg15)) := by
  show StableHlo.after hostOps3 (W4 m ρ c) (Proc.devRef .tc main_v45) = _
  rw [host3_mean, layer1, kept4 m ρ c main_v11 (by decide), kept4 m ρ c main_v13 (by decide), kept4 m ρ c main_v20 (by decide),
    host2_src, host2_dst, host2_deg, kept2 m ρ c main_arg15 (by decide) (by decide)]
  rfl

/-- An argument nothing writes, after the second stretch. -/
theorem kept5 (b : Ref sig .tc) (hk3 : StableHlo.after hostOps3 (W4 m ρ c) (Proc.devRef .tc b) = W4 m ρ c (Proc.devRef .tc b))
    (hk2 : StableHlo.after hostOps2 (W2 m ρ c) (Proc.devRef .tc b) = W2 m ρ c (Proc.devRef .tc b))
    (h0 : ∀ w, Pipeline.arrRef spec0 w ≠ b) (h1 : ∀ w, Pipeline.arrRef spec1 w ≠ b) (h2 : ∀ w, Pipeline.arrRef spec2 w ≠ b) :
    W5 m ρ c (Proc.devRef .tc b) = m ((c : Thread nD τ).loc b) :=
  hk3.trans ((kept4 m ρ c b h2).trans (hk2.trans (kept2 m ρ c b h0 h1)))

/-- The second layer's rows, after its kernel. -/
theorem layer2 : W6 m ρ c (Proc.devRef .tc main_v46) = rows2 m c := by
  have e9 : V5 m ρ c main_arg9 = m ((c : Thread nD τ).loc main_arg9) :=
    kept5 m ρ c main_arg9 (host3_keep9 _) (host2_keep9 _) (by decide) (by decide) (by decide)
  have e10 : V5 m ρ c main_arg10 = m ((c : Thread nD τ).loc main_arg10) :=
    kept5 m ρ c main_arg10 (host3_keep10 _) (host2_keep10 _) (by decide) (by decide) (by decide)
  have e11 : V5 m ρ c main_arg11 = m ((c : Thread nD τ).loc main_arg11) :=
    kept5 m ρ c main_arg11 (host3_keep11 _) (host2_keep11 _) (by decide) (by decide) (by decide)
  refine (W6_arr m ρ c 5).trans ((Layer2.value (V5 m ρ) c).trans ?_)
  rw [entry2_rows, entry2_mean, e9, e10, e11]
  rfl

/-- The result buffer, after the head: the network of the arguments as launched. -/
theorem result : W7 m ρ c (Proc.devRef .tc main_v47) = ofLaunch m c := by
  have e12 : V6 m ρ c main_arg12 = m ((c : Thread nD τ).loc main_arg12) :=
    (W6_of_ne m ρ c main_arg12 (by decide)).trans (kept5 m ρ c main_arg12 (host3_keep12 _) (host2_keep12 _) (by decide) (by decide) (by decide))
  have e13 : V6 m ρ c main_arg13 = m ((c : Thread nD τ).loc main_arg13) :=
    (W6_of_ne m ρ c main_arg13 (by decide)).trans (kept5 m ρ c main_arg13 (host3_keep13 _) (host2_keep13 _) (by decide) (by decide) (by decide))
  have e46 : V6 m ρ c main_v46 = rows2 m c := layer2 m ρ c
  refine (W7_arr m ρ c 3).trans ((Head.value (V6 m ρ) c).trans ?_)
  rw [e46, e12, e13, ofLaunch_eq]

/-! ## The run -/

/-- From any memory with zero counters every weakly fair execution of @main terminates, nothing faulting, with the result
    at the network of the arguments as launched and the arguments unchanged. -/
theorem run : θ_run defs (onTc (τ := τ) (main (F := Ideal))) ⟨m, fun _ => 0, ρ⟩ (fun r => ∀ c : Dev nD,
      r.2.mem ((c.tc : Thread nD τ).loc main_v47) = ofLaunch m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v47 (by decide))).trans (result m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (Run.run_last m ρ)

end Cert.KernelIdeal.Net

end
-- ==== Proof.RefNetwork.lean ====
/-
  The reference computes the network.

  Stage by stage its operations are the model's: each encoder is a product plus a bias row broadcast down the rows
  (`affine`), the gather of the nodes' rows and the mean over in-neighbours are the model's own terms, a layer's combine
  step is two products and a bias row (`sageRows`), the rectifier is the maximum with a broadcast zero (`relu`).
-/
import proofs.«169009_j58179626992415_1_alg».proof.Proof.Gen.ReferenceIdeal.Read
import proofs.«169009_j58179626992415_1_alg».proof.Proof.Model

noncomputable section

namespace Cert.ReferenceIdeal.Net

open Cert.ReferenceIdeal Cert.ReferenceIdeal.Gen Cert.ReferenceIdeal.Read Idealize.ShloMosaic Idealize.ShloMosaic.TcCoe Idealize.SL.Sem
open Cert.PlainDot Cert.Model

variable (x0 x1 : (⟨S25000x32, .f32⟩ : BufTy).Contents (Elt Ideal)) (x2 : (⟨S32x128, .f32⟩ : BufTy).Contents (Elt Ideal))
  (x3 : (⟨S128, .f32⟩ : BufTy).Contents (Elt Ideal)) (x4 : (⟨S32x128, .f32⟩ : BufTy).Contents (Elt Ideal))
  (x5 : (⟨S128, .f32⟩ : BufTy).Contents (Elt Ideal)) (x6 x7 : (⟨S128x128, .f32⟩ : BufTy).Contents (Elt Ideal))
  (x8 : (⟨S128, .f32⟩ : BufTy).Contents (Elt Ideal)) (x9 x10 : (⟨S128x128, .f32⟩ : BufTy).Contents (Elt Ideal))
  (x11 : (⟨S128, .f32⟩ : BufTy).Contents (Elt Ideal)) (x12 : (⟨S128x16, .f32⟩ : BufTy).Contents (Elt Ideal))
  (x13 : (⟨S16, .f32⟩ : BufTy).Contents (Elt Ideal)) (x14 : (⟨S50000, .i32⟩ : BufTy).Contents (Elt Ideal))
  (x15 : (⟨S2x800000, .i32⟩ : BufTy).Contents (Elt Ideal))

/-- The first table's encoding is the affine map of its rows. -/
theorem encode0 : val_main_v3 (F := Ideal) x0 x2 x3 = affine (M := 25000) (K := 32) (N := 128) x0 x2 x3 := by
  unfold val_main_v3 val_main_v0 val_main_v2 val_main_v1
  exact hostAffine_eq (M := 25000) (K := 32) (N := 128) x0 x2 x3 _ _

/-- The second table's likewise. -/
theorem encode1 : val_main_v7 (F := Ideal) x1 x4 x5 = affine (M := 25000) (K := 32) (N := 128) x1 x4 x5 := by
  unfold val_main_v7 val_main_v4 val_main_v6 val_main_v5
  exact hostAffine_eq (M := 25000) (K := 32) (N := 128) x1 x4 x5 _ _

/-- The nodes' rows are gathered from the two encodings laid end to end. -/
theorem rows : val_main_v15 (F := Ideal) x0 x1 x2 x3 x4 x5 x14
    = nodeRows (val_main_v3 (F := Ideal) x0 x2 x3) (val_main_v7 (F := Ideal) x1 x4 x5) x14 := rfl

/-- The first layer's neighbour term is the mean of the nodes' rows over the edges. -/
theorem mean1 : val_main_v38 (F := Ideal) x0 x1 x2 x3 x4 x5 x14 x15
    = meanRows (val_main_v15 (F := Ideal) x0 x1 x2 x3 x4 x5 x14) x15 := rfl

/-- The first layer's combine step. -/
theorem layer1 : val_main_v44 (F := Ideal) x0 x1 x2 x3 x4 x5 x6 x7 x8 x14 x15
    = sageRows (M := 50000) (K := 128) (N := 128) (val_main_v15 (F := Ideal) x0 x1 x2 x3 x4 x5 x14)
        (val_main_v38 (F := Ideal) x0 x1 x2 x3 x4 x5 x14 x15) x6 x7 x8 := by
  unfold val_main_v44 val_main_v41 val_main_v39 val_main_v40 val_main_v43 val_main_v42
  exact hostSage_eq (M := 50000) (K := 128) (N := 128) _ _ x6 x7 x8 _ _

/-- The first layer is rectified. -/
theorem act1 : val_main_v45 (F := Ideal) x0 x1 x2 x3 x4 x5 x6 x7 x8 x14 x15
    = relu (val_main_v44 (F := Ideal) x0 x1 x2 x3 x4 x5 x6 x7 x8 x14 x15) := by
  unfold val_main_v45 val_main_call0_v0 val_main_call0_cst
  exact hostRelu_eq _ _

/-- The second layer's neighbour term is the mean of the first layer's rows over the same edges. -/
theorem mean2 : val_main_v57 (F := Ideal) x0 x1 x2 x3 x4 x5 x6 x7 x8 x14 x15
    = meanRows (val_main_v45 (F := Ideal) x0 x1 x2 x3 x4 x5 x6 x7 x8 x14 x15) x15 := rfl

/-- The second layer's combine step. -/
theorem layer2 : val_main_v63 (F := Ideal) x0 x1 x2 x3 x4 x5 x6 x7 x8 x9 x10 x11 x14 x15
    = sageRows (M := 50000) (K := 128) (N := 128) (val_main_v45 (F := Ideal) x0 x1 x2 x3 x4 x5 x6 x7 x8 x14 x15)
        (val_main_v57 (F := Ideal) x0 x1 x2 x3 x4 x5 x6 x7 x8 x14 x15) x9 x10 x11 := by
  unfold val_main_v63 val_main_v60 val_main_v58 val_main_v59 val_main_v62 val_main_v61
  exact hostSage_eq (M := 50000) (K := 128) (N := 128) _ _ x9 x10 x11 _ _

/-- The last affine map. -/
theorem head : val_main_v67 (F := Ideal) x0 x1 x2 x3 x4 x5 x6 x7 x8 x9 x10 x11 x12 x13 x14 x15
    = affine (M := 50000) (K := 128) (N := 16) (val_main_v63 (F := Ideal) x0 x1 x2 x3 x4 x5 x6 x7 x8 x9 x10 x11 x14 x15) x12 x13 := by
  unfold val_main_v67 val_main_v64 val_main_v66 val_main_v65
  exact hostAffine_eq (M := 50000) (K := 128) (N := 16) _ x12 x13 _ _

/-- The reference's last stage is the network of its arguments. -/
theorem network_eq : val_main_v67 (F := Ideal) x0 x1 x2 x3 x4 x5 x6 x7 x8 x9 x10 x11 x12 x13 x14 x15
    = network x0 x1 x2 x3 x4 x5 x6 x7 x8 x9 x10 x11 x12 x13 x14 x15 := by
  rw [head, layer2, mean2, act1, layer1, mean1, rows, encode0, encode1]
  rfl

end Cert.ReferenceIdeal.Net

end
-- ==== Proof.lean ====
/-
  Two tables of features, encoded, gathered per graph node, passed through two layers that combine a node's own row with
  the mean of its in-neighbours' rows (the first rectified), then through a last affine map: the kernel computes the dense
  steps in five tiled calls and leaves the irregular steps to the host; the reference computes everything on the host.

  At the ideal values both are one function of the sixteen arguments, `Cert.Model.network`.
  The reference: its run ends at its operations' composed term, which stage by stage is the network
  (`Cert.ReferenceIdeal.Net.network_eq`): a host product plus a broadcast bias row is the affine map, and the index
  arithmetic, the gathers and the sums over the edges are the network's own terms.
  The kernel: a tiled call's blocks are blocks of rows, an entry of an affine map (of a layer's combine step) depends on
  its own row of the row operands only, so each call's result array ends holding the same whole-array function the
  reference applies (`Encode0`, `Encode1`, `Layer1`, `Layer2`, `Head`); narrowing the operands to bf16 and
  accumulating into a zero splat change nothing at the ideal values. The host steps between the calls are the
  reference's, applied to equal values (`Cert.KernelIdeal.Net.result`).
  No law of the extended reals beyond "a product is the sum over k of x(r,k)·w(k,c)" is used, so the precondition
  (finite inputs) is never opened. The ideal pass rewrote nothing, so `preserves` has nothing to state.
  The three frames are the generated ones; the reference's is its generated run with the result dropped.
-/
import proofs.«169009_j58179626992415_1_alg».proof.Defs
import proofs.«169009_j58179626992415_1_alg».proof.Proof.Gen.Kernel
import proofs.«169009_j58179626992415_1_alg».proof.Proof.Gen.Kernel.Skeleton
import proofs.«169009_j58179626992415_1_alg».proof.Proof.Gen.Kernel.Launch
import proofs.«169009_j58179626992415_1_alg».proof.Proof.Gen.Kernel.Points
import proofs.«169009_j58179626992415_1_alg».proof.Proof.Gen.Kernel.Frame
import proofs.«169009_j58179626992415_1_alg».proof.Proof.Gen.KernelIdeal
import proofs.«169009_j58179626992415_1_alg».proof.Proof.Gen.KernelIdeal.Skeleton
import proofs.«169009_j58179626992415_1_alg».proof.Proof.Gen.KernelIdeal.Launch
import proofs.«169009_j58179626992415_1_alg».proof.Proof.Gen.KernelIdeal.Points
import proofs.«169009_j58179626992415_1_alg».proof.Proof.Gen.KernelIdeal.Frame
import proofs.«169009_j58179626992415_1_alg».proof.Proof.Gen.ReferenceIdeal
import proofs.«169009_j58179626992415_1_alg».proof.Proof.Gen.ReferenceIdeal.Run
import proofs.«169009_j58179626992415_1_alg».proof.Proof.Gen.ReferenceIdeal.Read
import proofs.«169009_j58179626992415_1_alg».proof.Proof.Gen.Pre_finite_inputs
import proofs.«169009_j58179626992415_1_alg».proof.Proof.KernelNetwork
import proofs.«169009_j58179626992415_1_alg».proof.Proof.RefNetwork
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with their result at the network of those arguments. -/
theorem algebraic : Cert.algebraic_KernelIdeal_ReferenceIdeal := by
  intro m ρ m' ρ' _ hagree
  refine ⟨fun c => Cert.KernelIdeal.Net.ofLaunch m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15⟩ := hagree c
  rw [Cert.ReferenceIdeal.Read.val_main_v67_eq, Cert.ReferenceIdeal.Net.network_eq, g0, g1, g2, g3, g4, g5, g6, g7, g8, g9, g10, g11, g12, g13, g14, g15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
